-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1250000 32) (main_arg2 : FVec F S128x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1250000 : Shape := ⟨2, ![2, 1250000]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S64x64 : Shape := ⟨2, ![64, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 32
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S100000x1, .f32⟩
  | .hbm, ⟨28, _⟩ => ⟨S64x64, .f32⟩
  | .hbm, ⟨29, _⟩ => ⟨S64x64, .f32⟩
  | .hbm, ⟨30, _⟩ => ⟨S1x64, .f32⟩
  | .hbm, ⟨31, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  slices_S128x64_S64x64_0_0 : S128x64.Slices ![0, 0] S64x64
  slices_S128x64_S64x64_64_0 : S128x64.Slices ![64, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x128, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_cst : Ref sig .tc := ⟨.hbm, 41, rfl⟩
abbrev main_call1_v0 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x64_S100000x64_1_0_0_1_n_n_wf : DotDims.WF S100000x128 S128x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  One GraphSAGE layer with mean aggregation, as a function of arrays over the extended reals.

  For a node `i` with feature row `x i`, summed neighbour features `nb i` and in-degree `cnt i`,
  the layer's row is
      relu ( x i · W_top  +  (nb i / d i) · W_bot  +  b ),      d i = cnt i, or 1 where cnt i = 0,
  where `W_top` is rows 0..63 and `W_bot` rows 64..127 of the 128 × 64 weight matrix.  One program
  forms the two 64-term products separately and adds them; the other concatenates `x i` and the
  neighbour mean into a 128-vector and takes ONE 128-term product with `W`.  The two agree because a
  sum over 128 positions is the sum over the first 64 plus the sum over the last 64: only
  associativity of addition is used, so the identity holds on the extended reals with no
  finiteness assumption.
-/
import Idealize.ShloMosaic.PureOps.Ideal
import Idealize.ShloMosaic.Lib.ValueIdx
import Mathlib.Algebra.BigOperators.Fin

noncomputable section

namespace Cert.MeanLayer

open Idealize.ShloMosaic Idealize.ShloMosaic.ValueIdx

/-- The float word of `0.0` and of `1.0`, read as extended reals (never evaluated: both programs
    carry the same words). -/
abbrev zeroW : EReal := Ideal.ofBits .f32 0x00000000#32
abbrev oneW : EReal := Ideal.ofBits .f32 0x3F800000#32

/-- The divisor of the neighbour mean: the in-degree, replaced by one at a node with no in-edge. -/
def degreeOrOne (c : EReal) : EReal :=
  Scalar.select (FloatOps.cmpf (F := Ideal) (φ := .f32) .oeq c zeroW) oneW c

/-- One output entry from the node's own row, its neighbour-sum row, its in-degree, one column of
    `W_top`, the same column of `W_bot`, and the bias entry. -/
def entry (x nb : Fin 64 → EReal) (c : EReal) (wt wb : Fin 64 → EReal) (b : EReal) : EReal :=
  max ((∑ k, x k * wt k) + (∑ k, Ideal.div (nb k) (degreeOrOne c) * wb k) + b) zeroW

/-- Position `k` of the first half, and of the second half, of a 128-vector. -/
def lo (k : Fin 64) : Fin 128 := ⟨k.val, by omega⟩
def hi (k : Fin 64) : Fin 128 := ⟨64 + k.val, by omega⟩

@[simp] theorem lo_val (k : Fin 64) : (lo k).val = k.val := rfl
@[simp] theorem hi_val (k : Fin 64) : (hi k).val = 64 + k.val := rfl

/-- A sum over 128 positions is the sum over its first half plus the sum over its second half. -/
theorem sum_halves {M : Type*} [AddCommMonoid M] (f : Fin 128 → M) :
    ∑ k : Fin 128, f k = ∑ k : Fin 64, f (lo k) + ∑ k : Fin 64, f (hi k) :=
  Fin.sum_univ_add (a := 64) (b := 64) f

/-- THE LAYER: the whole 100000 × 64 result as one function of the node features `x`, the summed
    neighbour features `nb`, the in-degrees `cnt`, the weights `W` and the bias `b`. -/
def layer (x nb : (⟨2, ![100000, 64]⟩ : Shape).Idx → EReal) (cnt : (⟨1, ![100000]⟩ : Shape).Idx → EReal)
    (W : (⟨2, ![128, 64]⟩ : Shape).Idx → EReal) (b : (⟨1, ![64]⟩ : Shape).Idx → EReal) :
    (⟨2, ![100000, 64]⟩ : Shape).Idx → EReal := fun i =>
  entry (fun k => x (ix2 (i 0) k)) (fun k => nb (ix2 (i 0) k)) (cnt (ix1 (i 0)))
    (fun k => W (ix2 (lo k) (i 1))) (fun k => W (ix2 (hi k) (i 1))) (b (ix1 (i 1)))

end Cert.MeanLayer

end
-- ==== Proof.RefIsLayer.lean ====
/-
  The reference program computes the layer.

  Read at an output index (i, j), the reference's last stage is
      max ( Σ_{k<128} cat(x, nb / d)[i,k] · W[k,j]  +  b[j] , 0 ),
  where `cat` joins the node's own 64 features with its 64 neighbour means along the feature axis
  and `d` is the in-degree broadcast along the row (one where the degree is zero).  Splitting the
  128-term sum into its halves, the first half reads `x` against rows 0..63 of `W` and the second
  reads the neighbour mean against rows 64..127: this is `MeanLayer.layer` of the node features,
  the scatter-added neighbour sums and the scatter-added degrees, which stay unopened here.
-/
import proofs.«159416_j32298154066116_1_alg».proof.Proof.Spec
import proofs.«159416_j32298154066116_1_alg».proof.Proof.RefRead
import Idealize.ShloMosaic.Lib.Pipeline.Value
import Idealize.ShloMosaic.Lib.ValueIdx
import Idealize.ShloMosaic.PureOps.Ideal.Laws

noncomputable section

namespace Cert.MeanLayer.Ref

open Cert.ReferenceIdeal Cert.ReferenceIdeal.ReadP Idealize.ShloMosaic Idealize.ShloMosaic.ValueIdx Cert.MeanLayer

variable (x0 : (⟨S100000x64, .f32⟩ : BufTy).Contents (Elt Ideal)) (x1 : (⟨S2x1250000, .i32⟩ : BufTy).Contents (Elt Ideal))
  (x2 : (⟨S128x64, .f32⟩ : BufTy).Contents (Elt Ideal)) (x3 : (⟨S64, .f32⟩ : BufTy).Contents (Elt Ideal))

/-- The divisor array, broadcast along the row: at (i, j) it is the degree of node i, or one. -/
theorem divisor_apply (r : Fin 100000) (k : Fin 64) :
    val_main_v22 (F := Ideal) x1 (ix2 r k) = degreeOrOne (val_main_v17 (F := Ideal) x1 (ix1 r)) := by
  rw [val_main_v22_apply, val_main_v21_apply, val_main_v20_apply, val_main_v19_apply, val_main_v18_apply,
    val_main_cst_3_apply, val_main_call0_v0_apply, val_main_cst_4_apply]
  have e : idx_main_v21 (idx_main_v22 (ix2 r k)) = ix1 r := funext fun a => Fin.ext (by match a with | ⟨0, _⟩ => rfl)
  rw [e]
  rfl

/-- The first half of the concatenated row is the node's own features. -/
theorem cat_lo (i : S100000x64.Idx) (k : Fin 64) :
    val_main_v24 (F := Ideal) x0 x1 (lidx_main_v25 i (lo k)) = x0 (ix2 (i 0) k) := by
  unfold val_main_v24
  exact concatenate_pair_apply_left (t := S100000x128) (s₁ := S100000x64) (s₂ := S100000x64) (1 : Fin S100000x128.rank) x0 _ _
    (lidx_main_v25 i (lo k)) rfl (ix2 (i 0) k) (fun b => by match b with | ⟨0, _⟩ => rfl | ⟨1, _⟩ => rfl)

/-- The second half is the neighbour mean. -/
theorem cat_hi (i : S100000x64.Idx) (k : Fin 64) :
    val_main_v24 (F := Ideal) x0 x1 (lidx_main_v25 i (hi k)) = val_main_v23 (F := Ideal) x0 x1 (ix2 (i 0) k) := by
  unfold val_main_v24
  exact concatenate_pair_apply_right (t := S100000x128) (s₁ := S100000x64) (s₂ := S100000x64) (1 : Fin S100000x128.rank) x0 _ _
    (lidx_main_v25 i (hi k)) rfl rfl (ix2 (i 0) k)
    (fun b hb => by match b with | ⟨0, _⟩ => rfl | ⟨1, _⟩ => exact absurd rfl hb)
    (by show k.val + 64 = 64 + k.val; omega)

/-- The weight's index under the contraction: row k, column j. -/
theorem w_idx (i : S100000x64.Idx) (k : Fin 128) : ridx_main_v25 i k = ix2 k (i 1) :=
  funext fun a => Fin.ext (by match a with | ⟨0, _⟩ => rfl | ⟨1, _⟩ => rfl)

/-- The bias's index: column j. -/
theorem b_idx (i : S100000x64.Idx) : idx_main_v26 (idx_main_v27 i) = ix1 (i 1) :=
  funext fun a => Fin.ext (by match a with | ⟨0, _⟩ => rfl)

/-- THE REFERENCE IS THE LAYER of the node features, the neighbour sums and the degrees. -/
theorem ref_is_layer :
    val_main_v29 (F := Ideal) x0 x1 x2 x3
      = layer x0 (val_main_v13 (F := Ideal) x0 x1) (val_main_v17 (F := Ideal) x1) x2 x3 := by
  funext i
  rw [val_main_v29_apply, val_main_call1_v0_apply, val_main_call1_cst_apply, val_main_v28_apply,
    val_main_v27_apply, val_main_v26_apply, val_main_v25_apply, sum_halves]
  unfold layer entry
  rw [Ideal.maximumf_def, Ideal.addf_def, Ideal.ofBits_def]
  refine congrArg₂ max (congrArg₂ (· + ·) (congrArg₂ (· + ·) (Finset.sum_congr rfl fun k _ => ?_)
    (Finset.sum_congr rfl fun k _ => ?_)) ?_) rfl
  · exact congrArg₂ (· * ·) (cat_lo x0 x1 i k) (congrArg x2 (w_idx i (lo k)))
  · refine congrArg₂ (· * ·) ((cat_hi x0 x1 i k).trans ?_) (congrArg x2 (w_idx i (hi k)))
    rw [val_main_v23_apply]
    exact congrArg (Ideal.div (val_main_v13 (F := Ideal) x0 x1 (ix2 (i 0) k))) (divisor_apply x1 (i 0) k)
  · exact congrArg x3 (b_idx i)

end Cert.MeanLayer.Ref

end
-- ==== Proof.SplitLayer.lean ====
/-
  The layer over the arrays as one program lays them out for its row-blocked stage: the in-degrees
  as a 100000 × 1 column, the weight matrix as its two 64 × 64 halves (rows 0..63 and rows 64..127),
  the bias as a 1 × 64 row.  Reshaping the degree vector into a column, cutting the weights into
  their halves and reshaping the bias into a row changes no entry, so this form of the layer is the
  layer itself.
-/
import proofs.«159416_j32298154066116_1_alg».proof.Proof.Spec
import Idealize.ShloMosaic.Lib.Pipeline.Value

noncomputable section

namespace Cert.MeanLayer

open Idealize.ShloMosaic Idealize.ShloMosaic.ValueIdx

/-- The layer over a degree column, the two weight halves and a bias row. -/
def layerSplit (x nb : (⟨2, ![100000, 64]⟩ : Shape).Idx → EReal) (c2 : (⟨2, ![100000, 1]⟩ : Shape).Idx → EReal)
    (wt wb : (⟨2, ![64, 64]⟩ : Shape).Idx → EReal) (b2 : (⟨2, ![1, 64]⟩ : Shape).Idx → EReal) :
    (⟨2, ![100000, 64]⟩ : Shape).Idx → EReal := fun i =>
  entry (fun k => x (ix2 (i 0) k)) (fun k => nb (ix2 (i 0) k)) (c2 (ix2 (i 0) 0))
    (fun k => wt (ix2 k (i 1))) (fun k => wb (ix2 k (i 1))) (b2 (ix2 0 (i 1)))

/-- Entry r of the degree vector is entry (r, 0) of its column form. -/
theorem column_apply (cnt : (⟨1, ![100000]⟩ : Shape).Idx → EReal)
    (hc : (⟨1, ![100000]⟩ : Shape).ShapeCasts ⟨2, ![100000, 1]⟩) (r : Fin 100000) :
    shapeCast ⟨2, ![100000, 1]⟩ cnt hc (ix2 r 0) = cnt (ix1 r) :=
  shapeCast_apply cnt hc (ix2 r 0) (ix1 r) (by
    rw [Shape.rowMajor_val_one, Shape.rowMajor_val_two]; show r.val = r.val * 1 + 0; omega)

/-- Entry q of the bias vector is entry (0, q) of its row form. -/
theorem row_apply (b : (⟨1, ![64]⟩ : Shape).Idx → EReal)
    (hr : (⟨1, ![64]⟩ : Shape).ShapeCasts ⟨2, ![1, 64]⟩) (q : Fin 64) :
    shapeCast ⟨2, ![1, 64]⟩ b hr (ix2 0 q) = b (ix1 q) :=
  shapeCast_apply b hr (ix2 0 q) (ix1 q) (by
    rw [Shape.rowMajor_val_one, Shape.rowMajor_val_two]; show q.val = 0 * 64 + q.val; omega)

/-- Entry (k, q) of the upper half of the weights is entry (k, q) of the weights. -/
theorem upper_apply (W : (⟨2, ![128, 64]⟩ : Shape).Idx → EReal)
    (ht : (⟨2, ![128, 64]⟩ : Shape).Slices ![0, 0] ⟨2, ![64, 64]⟩) (k q : Fin 64) :
    extractStridedSlice ⟨2, ![64, 64]⟩ ![0, 0] W ht (ix2 k q) = W (ix2 (lo k) q) :=
  extractStridedSlice_apply ![0, 0] W ht (ix2 k q) (ix2 (lo k) q) (fun a => match a with
    | ⟨0, _⟩ => by show k.val = 0 + k.val; omega
    | ⟨1, _⟩ => by show q.val = 0 + q.val; omega)

/-- Entry (k, q) of the lower half of the weights is entry (64 + k, q) of the weights. -/
theorem lower_apply (W : (⟨2, ![128, 64]⟩ : Shape).Idx → EReal)
    (hb : (⟨2, ![128, 64]⟩ : Shape).Slices ![64, 0] ⟨2, ![64, 64]⟩) (k q : Fin 64) :
    extractStridedSlice ⟨2, ![64, 64]⟩ ![64, 0] W hb (ix2 k q) = W (ix2 (hi k) q) :=
  extractStridedSlice_apply ![64, 0] W hb (ix2 k q) (ix2 (hi k) q) (fun a => match a with
    | ⟨0, _⟩ => by show 64 + k.val = 64 + k.val; rfl
    | ⟨1, _⟩ => by show q.val = 0 + q.val; omega)

/-- THE SPLIT FORM IS THE LAYER. -/
theorem layerSplit_eq (x nb : (⟨2, ![100000, 64]⟩ : Shape).Idx → EReal) (cnt : (⟨1, ![100000]⟩ : Shape).Idx → EReal)
    (W : (⟨2, ![128, 64]⟩ : Shape).Idx → EReal) (b : (⟨1, ![64]⟩ : Shape).Idx → EReal)
    (hc : (⟨1, ![100000]⟩ : Shape).ShapeCasts ⟨2, ![100000, 1]⟩)
    (ht : (⟨2, ![128, 64]⟩ : Shape).Slices ![0, 0] ⟨2, ![64, 64]⟩)
    (hb : (⟨2, ![128, 64]⟩ : Shape).Slices ![64, 0] ⟨2, ![64, 64]⟩)
    (hr : (⟨1, ![64]⟩ : Shape).ShapeCasts ⟨2, ![1, 64]⟩) :
    layerSplit x nb (shapeCast ⟨2, ![100000, 1]⟩ cnt hc) (extractStridedSlice ⟨2, ![64, 64]⟩ ![0, 0] W ht)
        (extractStridedSlice ⟨2, ![64, 64]⟩ ![64, 0] W hb) (shapeCast ⟨2, ![1, 64]⟩ b hr)
      = layer x nb cnt W b := by
  funext i
  unfold layerSplit layer
  rw [column_apply cnt hc (i 0), row_apply b hr (i 1)]
  exact congrArg₂ (fun wt wb => entry _ _ _ wt wb _)
    (funext fun k => upper_apply W ht k (i 1)) (funext fun k => lower_apply W hb k (i 1))

end Cert.MeanLayer

end
-- ==== Proof.BodyEntry.lean ====
/-
  The kernel body's stored value, read at one index of its 5000 × 64 block.

  The body loads a block of node features, the matching block of neighbour sums, the matching
  5000 × 1 column of in-degrees, both 64 × 64 halves of the weights and the 1 × 64 bias, and stores
      max ( x·W_top + (nb / d)·W_bot + b , 0 ),
  with `d` the degree column (one where it is zero) broadcast along the row.  The changes of float
  format around the two block products are the identity on the extended reals, each product into a
  zero accumulator is the plain 64-term sum, and so the entry at (p, q) is `MeanLayer.entry` of
  row p of the two row blocks, entry p of the degree column, column q of the two weight halves
  and entry q of the bias.
-/
import proofs.«159416_j32298154066116_1_alg».proof.Proof.Spec
import proofs.«159416_j32298154066116_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.MeanLayer.Body

open Cert.KernelIdeal Cert.KernelIdeal.Gen Idealize.ShloMosaic Idealize.ShloMosaic.ValueIdx Cert.MeanLayer

/-! ## The block product's operand indices -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 by 64 × 64 block product into the zero accumulator, at (p, q): the 64-term sum of row p
    against column q. -/
theorem blockprod_apply {φ₁ φ₂ : FTy} (a : FVec Ideal S5000x64 φ₁) (w : FVec Ideal S64x64 φ₂) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The two broadcasts -/

/-- A 5000 × 1 column broadcast along the row, at (p, k): the column's entry p. -/
theorem bcast_col_apply {α : Type} (v : S5000x1.Idx → α) (h : S5000x1.Broadcasts S5000x64) (p : Fin 5000) (k : Fin 64) :
    broadcastTo S5000x64 v h (ix2 p k) = v (ix2 p 0) :=
  broadcastTo_apply v h (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- A 1 × 64 row broadcast down the rows, at (p, q): the row's entry q. -/
theorem bcast_row_apply {α : Type} (v : S1x64.Idx → α) (h : S1x64.Broadcasts S5000x64) (p : Fin 5000) (q : Fin 64) :
    broadcastTo S5000x64 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The stored value at an index -/

/-- The neighbour mean the body forms, at (p, k): the neighbour sum over the degree, or over one. -/
theorem mean_apply (v0 : Vec Ideal S5000x1 .f32) (v6 : Vec Ideal S5000x64 .f32) (p : Fin 5000) (k : Fin 64) :
    divf (F := Ideal) v6
        (broadcastTo S5000x64
          (select (cmpf (F := Ideal) .oeq v0 (broadcast S5000x1 (FloatOps.ofBits (F := Ideal) .f32 0x00000000#32)))
            (broadcast S5000x1 (FloatOps.ofBits (F := Ideal) .f32 0x3F800000#32)) v0)
          broadcasts_S5000x1_S5000x64) (ix2 p k)
      = Ideal.div (v6 (ix2 p k)) (degreeOrOne (v0 (ix2 p 0))) := by
  rw [divf_apply, bcast_col_apply, select_apply, cmpf_apply, broadcast_apply, broadcast_apply]
  rfl

/-- THE BODY'S ENTRY at (p, q). -/
theorem pay_apply (v0 : Vec Ideal S5000x1 .f32) (v6 v10 : Vec Ideal S5000x64 .f32) (v13 v16 : Vec Ideal S64x64 .f32)
    (v22 : Vec Ideal S1x64 .f32) (p : Fin 5000) (q : Fin 64) :
    k0_pay1 (F := Ideal) v0 v6 v10 v13 v16 v22 (ix2 p q)
      = entry (fun k => v10 (ix2 p k)) (fun k => v6 (ix2 p k)) (v0 (ix2 p 0))
          (fun k => v13 (ix2 k q)) (fun k => v16 (ix2 k q)) (v22 (ix2 0 q)) := by
  unfold k0_pay1 entry
  rw [maximumf_apply, addf_apply, addf_apply, blockprod_apply, blockprod_apply, bcast_row_apply, broadcast_apply]
  simp only [truncf_apply, shapeCast_self, mean_apply]
  rfl

end Cert.MeanLayer.Body

end
-- ==== Proof.BlocksToArray.lean ====
/-
  From blocks to the whole array.

  The row-blocked stage runs on 20 grid points; point t takes rows 5000·t .. 5000·t + 4999 of the node
  features, of the neighbour sums and of the degree column, the whole of both weight halves and of
  the bias row, and writes back rows 5000·t .. 5000·t + 4999 of the result.  What a point writes
  back, entry (p, q) of its block, is the layer's entry at (5000·t + p, q) — the body's entry
  (`Body.pay_apply`) with each loaded block read where the output's block says.  The 20 blocks tile
  the 100000 rows (row r lies in block r / 5000), so after the run the result array IS the layer, in
  its split form, of the arrays as the stage finds them.
-/
import proofs.«159416_j32298154066116_1_alg».proof.Proof.SplitLayer
import proofs.«159416_j32298154066116_1_alg».proof.Proof.BodyEntry
import proofs.«159416_j32298154066116_1_alg».proof.Proof.Gen.KernelIdeal.Value
import Idealize.ShloMosaic.Lib.Pipeline.Value

set_option maxRecDepth 16384

noncomputable section

namespace Cert.MeanLayer.Blocks

open Cert.KernelIdeal Cert.KernelIdeal.Gen Cert.KernelIdeal.Value Idealize.ShloMosaic Idealize.ShloMosaic.TcCoe
open Idealize.SL.Sem Idealize.ShloMosaic.ValueIdx Cert.MeanLayer
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 20 points: the output and the three row-blocked inputs take block t of the
    rows; the weight halves and the bias row take their one block. -/
theorem index_maps : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Equal ingredients give equal entries. -/
theorem entry_congr {x x' nb nb' : Fin 64 → EReal} {c c' : EReal} {wt wt' wb wb' : Fin 64 → EReal} {b b' : EReal}
    (hx : ∀ k, x k = x' k) (hnb : ∀ k, nb k = nb' k) (hc : c = c') (hwt : ∀ k, wt k = wt' k)
    (hwb : ∀ k, wb k = wb' k) (hb : b = b') : entry x nb c wt wb b = entry x' nb' c' wt' wb' b' := by
  obtain rfl := funext hx; obtain rfl := funext hnb; subst hc
  obtain rfl := funext hwt; obtain rfl := funext hwb; subst hb; rfl

/-! ## Each input block, read where the output's block says

Each fact is stated first for ANY array of the window's type, as a fact about positions alone, and
only then used for the array the stage finds: the arrays found are long chains of operations on the
arguments, and nothing here depends on what they hold. -/

section reads
variable (c : Dev nD) (t : Fin cfg0.N) (p : Fin 5000) (q : Fin 64)

/-- Where entry (p, k) of the node-feature block sits in its array: the row of the output's entry (p, q). -/
theorem pos_features (k : Fin 64) :
    ((cfg0.win 0).blk t).view.emb (ix2 p k) = ix2 ((((cfg0.win 6).blk t).view.emb (ix2 p q)) 0) k := by
  obtain ⟨e60, e61, e00, e01, -⟩ := index_maps t
  funext a; apply Fin.ext
  match a with
  | ⟨0, _⟩ => show win0_0.index t (0 : Fin 2) * 5000 + 1 * p.val = win0_6.index t (0 : Fin 2) * 5000 + 1 * p.val; omega
  | ⟨1, _⟩ => show win0_0.index t (1 : Fin 2) * 64 + 1 * k.val = k.val; omega

/-- The same for the neighbour-sum block. -/
theorem pos_neighbours (k : Fin 64) :
    ((cfg0.win 1).blk t).view.emb (ix2 p k) = ix2 ((((cfg0.win 6).blk t).view.emb (ix2 p q)) 0) k := by
  obtain ⟨e60, e61, -, -, e10, e11, -⟩ := index_maps t
  funext a; apply Fin.ext
  match a with
  | ⟨0, _⟩ => show win0_1.index t (0 : Fin 2) * 5000 + 1 * p.val = win0_6.index t (0 : Fin 2) * 5000 + 1 * p.val; omega
  | ⟨1, _⟩ => show win0_1.index t (1 : Fin 2) * 64 + 1 * k.val = k.val; omega

/-- Where entry p of the degree-column block sits in the column: that same row. -/
theorem pos_degree :
    ((cfg0.win 2).blk t).view.emb (ix2 p 0) = ix2 (n0 := 100000) (n1 := 1) ((((cfg0.win 6).blk t).view.emb (ix2 p q)) 0) 0 := by
  obtain ⟨e60, e61, -, -, -, -, e20, e21, -⟩ := index_maps t
  funext a; apply Fin.ext
  match a with
  | ⟨0, _⟩ => show win0_2.index t (0 : Fin 2) * 5000 + 1 * p.val = win0_6.index t (0 : Fin 2) * 5000 + 1 * p.val; omega
  | ⟨1, _⟩ => show win0_2.index t (1 : Fin 2) * 1 + 1 * 0 = 0; omega

/-- Where entry (k, q) of the upper weight half's block sits: row k, the column of the output's entry. -/
theorem pos_upper (k : Fin 64) :
    ((cfg0.win 3).blk t).view.emb (ix2 k q) = ix2 k ((((cfg0.win 6).blk t).view.emb (ix2 p q)) 1) := by
  obtain ⟨e60, e61, -, -, -, -, -, -, e30, e31, -⟩ := index_maps t
  funext a; apply Fin.ext
  match a with
  | ⟨0, _⟩ => show win0_3.index t (0 : Fin 2) * 64 + 1 * k.val = k.val; omega
  | ⟨1, _⟩ => show win0_3.index t (1 : Fin 2) * 64 + 1 * q.val = win0_6.index t (1 : Fin 2) * 64 + 1 * q.val; omega

/-- The same for the lower weight half. -/
theorem pos_lower (k : Fin 64) :
    ((cfg0.win 4).blk t).view.emb (ix2 k q) = ix2 k ((((cfg0.win 6).blk t).view.emb (ix2 p q)) 1) := by
  obtain ⟨e60, e61, -, -, -, -, -, -, -, -, e40, e41, -⟩ := index_maps t
  funext a; apply Fin.ext
  match a with
  | ⟨0, _⟩ => show win0_4.index t (0 : Fin 2) * 64 + 1 * k.val = k.val; omega
  | ⟨1, _⟩ => show win0_4.index t (1 : Fin 2) * 64 + 1 * q.val = win0_6.index t (1 : Fin 2) * 64 + 1 * q.val; omega

/-- Where entry q of the bias row's block sits: that column. -/
theorem pos_bias :
    ((cfg0.win 5).blk t).view.emb (ix2 0 q) = ix2 0 ((((cfg0.win 6).blk t).view.emb (ix2 p q)) 1) := by
  obtain ⟨e60, e61, -, -, -, -, -, -, -, -, -, -, e50, e51⟩ := index_maps t
  funext a; apply Fin.ext
  match a with
  | ⟨0, _⟩ => show win0_5.index t (0 : Fin 2) * 1 + 1 * 0 = 0; omega
  | ⟨1, _⟩ => show win0_5.index t (1 : Fin 2) * 64 + 1 * q.val = win0_6.index t (1 : Fin 2) * 64 + 1 * q.val; omega

/-- A block of ANY array read at an entry is the array at the entry's position. -/
theorem any_features (X : ((cfg0.win 0).blk t).view.ty.Contents (Elt Ideal)) (k : Fin 64) :
    ((cfg0.win 0).blk t).view.read (Elt Ideal) X (ix2 p k) = X (ix2 ((((cfg0.win 6).blk t).view.emb (ix2 p q)) 0) k) := by
  rw [View.read_apply, pos_features t p q k]; rfl
theorem any_neighbours (X : ((cfg0.win 1).blk t).view.ty.Contents (Elt Ideal)) (k : Fin 64) :
    ((cfg0.win 1).blk t).view.read (Elt Ideal) X (ix2 p k) = X (ix2 ((((cfg0.win 6).blk t).view.emb (ix2 p q)) 0) k) := by
  rw [View.read_apply, pos_neighbours t p q k]; rfl
theorem any_degree (X : ((cfg0.win 2).blk t).view.ty.Contents (Elt Ideal)) :
    ((cfg0.win 2).blk t).view.read (Elt Ideal) X (ix2 p 0) = X (ix2 (n0 := 100000) (n1 := 1) ((((cfg0.win 6).blk t).view.emb (ix2 p q)) 0) 0) := by
  rw [View.read_apply, pos_degree t p q]; rfl
theorem any_upper (X : ((cfg0.win 3).blk t).view.ty.Contents (Elt Ideal)) (k : Fin 64) :
    ((cfg0.win 3).blk t).view.read (Elt Ideal) X (ix2 k q) = X (ix2 k ((((cfg0.win 6).blk t).view.emb (ix2 p q)) 1)) := by
  rw [View.read_apply, pos_upper t p q k]; rfl
theorem any_lower (X : ((cfg0.win 4).blk t).view.ty.Contents (Elt Ideal)) (k : Fin 64) :
    ((cfg0.win 4).blk t).view.read (Elt Ideal) X (ix2 k q) = X (ix2 k ((((cfg0.win 6).blk t).view.emb (ix2 p q)) 1)) := by
  rw [View.read_apply, pos_lower t p q k]; rfl
theorem any_bias (X : ((cfg0.win 5).blk t).view.ty.Contents (Elt Ideal)) :
    ((cfg0.win 5).blk t).view.read (Elt Ideal) X (ix2 0 q) = X (ix2 0 ((((cfg0.win 6).blk t).view.emb (ix2 p q)) 1)) := by
  rw [View.read_apply, pos_bias t p q]; rfl

/-- Row p of the node-feature block at point t is the found array's row that the output's entry (p, q) lies in. -/
theorem read_features (k : Fin 64) :
    iblk m c 0 t (ix2 p k) = V m c main_arg0 (ix2 ((((cfg0.win 6).blk t).view.emb (ix2 p q)) 0) k) := by
  unfold iblk; exact any_features t p q (V m c main_arg0) k
/-- The same for the neighbour-sum block. -/
theorem read_neighbours (k : Fin 64) :
    iblk m c 1 t (ix2 p k) = V m c main_v13 (ix2 ((((cfg0.win 6).blk t).view.emb (ix2 p q)) 0) k) := by
  unfold iblk; exact any_neighbours t p q (V m c main_v13) k
/-- Entry p of the degree-column block is the found column's entry in that row. -/
theorem read_degree :
    iblk m c 2 t (ix2 p 0) = V m c main_v18 (ix2 (n0 := 100000) (n1 := 1) ((((cfg0.win 6).blk t).view.emb (ix2 p q)) 0) 0) := by
  unfold iblk; exact any_degree t p q (V m c main_v18)
/-- Column q of the upper weight half's block is the found half's column the output's entry lies in. -/
theorem read_upper (k : Fin 64) :
    iblk m c 3 t (ix2 k q) = V m c main_v19 (ix2 k ((((cfg0.win 6).blk t).view.emb (ix2 p q)) 1)) := by
  unfold iblk; exact any_upper t p q (V m c main_v19) k
/-- The same for the lower weight half. -/
theorem read_lower (k : Fin 64) :
    iblk m c 4 t (ix2 k q) = V m c main_v20 (ix2 k ((((cfg0.win 6).blk t).view.emb (ix2 p q)) 1)) := by
  unfold iblk; exact any_lower t p q (V m c main_v20) k
/-- Entry q of the bias row's block is the found row's entry in that column. -/
theorem read_bias :
    iblk m c 5 t (ix2 0 q) = V m c main_v21 (ix2 0 ((((cfg0.win 6).blk t).view.emb (ix2 p q)) 1)) := by
  unfold iblk; exact any_bias t p q (V m c main_v21)

end reads

/-! ## What a point writes back, and the whole array -/

/-- The layer, in its split form, of the arrays as the row-blocked stage finds them. -/
abbrev found (c : Dev nD) : S100000x64.Idx → EReal :=
  layerSplit (V m c main_arg0) (V m c main_v13) (V m c main_v18) (V m c main_v19) (V m c main_v20) (V m c main_v21)

/-- WHAT POINT t WRITES BACK is block t of the layer. -/
theorem flushed_eq (c : Dev nD) (t : Fin cfg0.N) :
    (dats m 0 c).flushed 6 t = ((cfg0.win 6).blk t).view.read (Elt Ideal) (found m c) := by
  rw [flushed6]
  unfold out0_6
  rw [View.canon_unit_zero zero_offsets]
  simp only [View.ld_unit_zero (S := S5000x1) zero_offsets, View.ld_unit_zero (S := S5000x64) zero_offsets,
    View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  show k0_pay1 (F := Ideal) (iblk m c 2 t) (iblk m c 1 t) (iblk m c 0 t) (iblk m c 3 t) (iblk m c 4 t) (iblk m c 5 t) (ix2 p q)
    = found m c (((cfg0.win 6).blk t).view.emb (ix2 p q))
  refine (Body.pay_apply (iblk m c 2 t) (iblk m c 1 t) (iblk m c 0 t) (iblk m c 3 t) (iblk m c 4 t) (iblk m c 5 t) p q).trans ?_
  unfold found layerSplit
  exact entry_congr (fun k => read_features m c t p q k) (fun k => read_neighbours m c t p q k) (read_degree m c t p q)
    (fun k => read_upper m c t p q k) (fun k => read_lower m c t p q k) (read_bias m c t p q)

/-- An index of the array is in point t's block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v22).slice (win0_6.rect t)).set ↔ _
  rw [View.set_slice_whole, Rect.mem_set_unit]
  exact Iff.rfl

/-- THE BLOCKS TILE THE ARRAY: row r lies in the block of point r / 5000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 5000 < cfg0.N := by rw [show cfg0.N = 20 from N_0]; omega
  obtain ⟨e60, e61, -⟩ := index_maps ⟨(i 0).val / 5000, hN⟩
  refine ⟨⟨(i 0).val / 5000, hN⟩, flush0_6 _, ?_⟩
  rw [mem_blk]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, hN⟩ (1 : Fin 2) * 64 ≤ (i 1).val ∧ (i 1).val < win0_6.index ⟨(i 0).val / 5000, hN⟩ (1 : Fin 2) * 64 + 64
    omega

/-- THE ARRAY after the run is the layer of the arrays as the stage finds them. -/
theorem final (c : Dev nD) : (dats m 0 c).arrAt 6 cfg0.N = found m c :=
  (dats m 0 c).arrAt_eq_of_cover 6 (found m c) (fun t _ => flushed_eq m c t) cover

end Cert.MeanLayer.Blocks

end
-- ==== Proof.FoundArrays.lean ====
/-
  The arrays the row-blocked stage finds, as functions of the program's arguments.

  Before its row-blocked stage this program forms, from the edge list, the gathered source rows, their
  scatter-added sums per destination node (the neighbour sums) and the scatter-added ones (the
  in-degrees); it reshapes the degrees into a column, cuts the weight matrix into its two halves and
  reshapes the bias into a row.  The other program forms the neighbour sums and the degrees by the
  very same chain of operations on the same arguments, so the two are carried as ONE term each and
  never opened: the only thing used of a scatter-add here is that both programs apply the same one.
-/
import proofs.«159416_j32298154066116_1_alg».proof.Proof.Gen.KernelIdeal.Frame
import proofs.«159416_j32298154066116_1_alg».proof.Proof.RefRead
import Idealize.ShloMosaic.Lib.StableHlo.Run

noncomputable section

namespace Cert.MeanLayer.Found

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The neighbour sums the stage finds are the other program's neighbour sums of the same arguments. -/
theorem neighbours (c : Dev nD) :
    (V m c main_v13 : S100000x64.Idx → Elt F .f32)
      = Cert.ReferenceIdeal.ReadP.val_main_v13 (F := F) (m ((c : Thread nD τ).loc main_arg0)) (m ((c : Thread nD τ).loc main_arg1)) := by
  dsimp only [V, hostOps0]
  after_results
  rfl

/-- The degree column the stage finds is the other program's degree vector of the same argument, as a column. -/
theorem degrees (c : Dev nD) :
    (V m c main_v18 : S100000x1.Idx → Elt F .f32)
      = shapeCast S100000x1 (Cert.ReferenceIdeal.ReadP.val_main_v17 (F := F) (m ((c : Thread nD τ).loc main_arg1))) shapeCasts_S100000_S100000x1 := by
  dsimp only [V, hostOps0]
  after_results
  rfl

/-- The upper weight half the stage finds. -/
theorem upper (c : Dev nD) :
    (V m c main_v19 : S64x64.Idx → Elt F .f32)
      = extractStridedSlice S64x64 ![0, 0] (m ((c : Thread nD τ).loc main_arg2)) slices_S128x64_S64x64_0_0 := by
  dsimp only [V, hostOps0]
  after_results

/-- The lower weight half the stage finds. -/
theorem lower (c : Dev nD) :
    (V m c main_v20 : S64x64.Idx → Elt F .f32)
      = extractStridedSlice S64x64 ![64, 0] (m ((c : Thread nD τ).loc main_arg2)) slices_S128x64_S64x64_64_0 := by
  dsimp only [V, hostOps0]
  after_results

/-- The bias row the stage finds. -/
theorem bias (c : Dev nD) :
    (V m c main_v21 : S1x64.Idx → Elt F .f32)
      = shapeCast S1x64 (m ((c : Thread nD τ).loc main_arg3)) shapeCasts_S64_S1x64 := by
  dsimp only [V, hostOps0]
  after_results
  rfl

end Cert.MeanLayer.Found

end
-- ==== Proof.KernelRun.lean ====
/-
  The row-blocked program's run, read: its result array is the layer of its arguments.

  After the run the result array is the layer, in its split form, of the arrays the row-blocked stage
  finds (`Blocks.final`); those arrays are the node features themselves, the neighbour sums and the
  degree column formed from the arguments, the two halves of the weights and the bias as a row
  (`Found`); and the split form of the layer is the layer (`layerSplit_eq`).
-/
import proofs.«159416_j32298154066116_1_alg».proof.Proof.BlocksToArray
import proofs.«159416_j32298154066116_1_alg».proof.Proof.FoundArrays

noncomputable section

namespace Cert.MeanLayer.Run

open Cert.KernelIdeal Cert.KernelIdeal.Gen Cert.KernelIdeal.Value Idealize.ShloMosaic Idealize.ShloMosaic.TcCoe
open Idealize.SL.Sem Cert.MeanLayer

variable (m : (ℓ : Loc nD τ sig) → Buf (Elt Ideal) ℓ) (ρ : Dev nD → PrngReg)

/-- The layer of the program's arguments on core c: node features, the neighbour sums and degrees formed
    from the features and the edge list, weights, bias. -/
abbrev ofArgs (c : Dev nD) : S100000x64.Idx → EReal :=
  layer (m ((c : Thread nD τ).loc main_arg0))
    (Cert.ReferenceIdeal.ReadP.val_main_v13 (F := Ideal) (m ((c : Thread nD τ).loc main_arg0)) (m ((c : Thread nD τ).loc main_arg1)))
    (Cert.ReferenceIdeal.ReadP.val_main_v17 (F := Ideal) (m ((c : Thread nD τ).loc main_arg1)))
    (m ((c : Thread nD τ).loc main_arg2)) (m ((c : Thread nD τ).loc main_arg3))

/-- What the stage finds, put through the layer's split form, is the layer of the arguments. -/
theorem found_eq (c : Dev nD) : Blocks.found m c = ofArgs m c := by
  unfold Blocks.found ofArgs
  rw [V_main_arg0 m c, Found.neighbours m c, Found.degrees m c, Found.upper m c, Found.lower m c, Found.bias m c]
  exact layerSplit_eq _ _ _ _ _ _ _ _ _

/-- THE RUN: every weakly fair execution ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v22) = ofArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((Blocks.final m c).trans (found_eq m c)), (h c).2⟩)
    (run_blocks m ρ)

end Cert.MeanLayer.Run

end
-- ==== Proof.lean ====
/-
  A GraphSAGE layer with mean aggregation, two ways, equal over the extended reals.

  Both programs form, from the 100000 × 64 node features and the 1250000 edges, the scatter-added
  neighbour feature sums and the scatter-added in-degrees by one and the same chain of operations.
  One program then runs a row-blocked stage over 20 blocks of 5000 nodes that computes
      relu ( x · W_top + (nb / d) · W_bot + b ),    d = the degree, or 1 at a node of degree 0,
  as two 64-term products added; the other concatenates x with nb / d and takes one 128-term
  product with the whole weight matrix.  A sum over 128 positions is the sum over its first 64 plus
  the sum over its last 64 (associativity of addition alone: nothing here needs the inputs finite),
  the changes of float format around the block products are the identity on the extended reals, and
  the float words 0.0 and 1.0 are the same words in both programs.  So both results are
  `MeanLayer.layer` of the node features, the shared neighbour sums, the shared degrees, the weights
  and the bias: the algebraic claim.  Each frame claim is the program's run with the result forgotten;
  the idealization rewrote nothing, so the preservation claim is trivial.
-/
import proofs.«159416_j32298154066116_1_alg».proof.Defs
import proofs.«159416_j32298154066116_1_alg».proof.Proof.Gen.Kernel
import proofs.«159416_j32298154066116_1_alg».proof.Proof.Gen.Kernel.Skeleton
import proofs.«159416_j32298154066116_1_alg».proof.Proof.Gen.Kernel.Launch
import proofs.«159416_j32298154066116_1_alg».proof.Proof.Gen.Kernel.Points
import proofs.«159416_j32298154066116_1_alg».proof.Proof.Gen.Kernel.Frame
import proofs.«159416_j32298154066116_1_alg».proof.Proof.Gen.KernelIdeal
import proofs.«159416_j32298154066116_1_alg».proof.Proof.Gen.KernelIdeal.Skeleton
import proofs.«159416_j32298154066116_1_alg».proof.Proof.Gen.KernelIdeal.Launch
import proofs.«159416_j32298154066116_1_alg».proof.Proof.Gen.KernelIdeal.Points
import proofs.«159416_j32298154066116_1_alg».proof.Proof.Gen.KernelIdeal.Frame
import proofs.«159416_j32298154066116_1_alg».proof.Proof.Gen.ReferenceIdeal
import proofs.«159416_j32298154066116_1_alg».proof.Proof.Gen.Pre_finite_inputs
import proofs.«159416_j32298154066116_1_alg».proof.Proof.Gen.KernelIdeal.Value
import proofs.«159416_j32298154066116_1_alg».proof.Proof.RefRead
import proofs.«159416_j32298154066116_1_alg».proof.Proof.RefIsLayer
import proofs.«159416_j32298154066116_1_alg».proof.Proof.KernelRun
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and keeps its arguments: its run, the result forgotten. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- No operation was rewritten when the program was read over the extended reals. -/
theorem preserves : Cert.preserves_Kernel_KernelIdeal := trivial

/-- From memories that agree on the arguments both programs end with the layer of those arguments. -/
theorem algebraic : Cert.algebraic_KernelIdeal_ReferenceIdeal := by
  intro m ρ m' ρ' _ hagree
  refine ⟨_, Cert.MeanLayer.Run.run m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v29_eq, Cert.MeanLayer.Ref.ref_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
